-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S100000x1024 : Shape := ⟨2, ![100000, 1024]⟩
abbrev S500x1024 : Shape := ⟨2, ![500, 1024]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S500x1024 : S_.BroadcastsInDim S500x1024 (![] : Fin 0 → Fin S500x1024.rank)
  reducesTo_S500x1024_S_d0_1 : S500x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg0 : IVec S1024 32) (main_arg1 : IVec S1024 32) (main_v13 : IVec S_ 1) (main_v15 : IVec S1024 1) (main_c_5 : IVec S_ 32) : IVec S_ 1 :=
  let main_v16 : IVec S1024 32 := broadcastInDim S1024 ![] bcast_S_S1024 main_c_5
  let main_v17 : IVec S1024 1 := cmpi .slt main_arg0 main_v16
  let main_v18 : IVec S1024 1 := andi main_v15 main_v17
  let main_c_6 : IVec S_ 1 := constantI S_ 1 1#1
  let main_v19 : IVec S_ 1 := (fun x v => Host.reduce IntOp.andi x v reducesTo_S1024_S_d0 h_S_) main_v18 main_c_6
  let main_v20 : IVec S_ 1 := andi main_v13 main_v19
  let main_c_7 : IVec S_ 32 := constantI S_ 32 4294966796#32
  let main_v21 : IVec S1024 32 := broadcastInDim S1024 ![] bcast_S_S1024 main_c_7
  let main_v22 : IVec S1024 1 := cmpi .sge main_arg1 main_v21
  let main_c_8 : IVec S_ 32 := constantI S_ 32 500#32
  let main_v23 : IVec S1024 32 := broadcastInDim S1024 ![] bcast_S_S1024 main_c_8
  let main_v24 : IVec S1024 1 := cmpi .slt main_arg1 main_v23
  let main_v25 : IVec S1024 1 := andi main_v22 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v20 main_v26
  main_v27

def fn {F : FTy → Type} [FloatOps F] (main_arg0 : IVec S1024 32) (main_arg1 : IVec S1024 32) (main_arg2 : FVec F S100000x1024 .f32) (main_arg3 : FVec F S100000x1024 .f32) (main_arg4 : FVec F S500x1024 .f32) : IVec S_ 1 :=
  let main_v0 : FVec F S100000x1024 .f32 := Host.absf main_arg2
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S100000x1024 .f32 := Host.absf main_arg3
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  let main_v9 : FVec F S500x1024 .f32 := Host.absf main_arg4
  let main_cst_2 : FVec F S_ .f32 := constant S_ .f32 0x7F800000#32
  let main_v10 : FVec F S500x1024 .f32 := broadcastInDim S500x1024 ![] bcast_S_S500x1024 main_cst_2
  let main_v11 : IVec S500x1024 1 := cmpf .olt main_v9 main_v10
  let main_c_3 : IVec S_ 1 := constantI S_ 1 1#1
  let main_v12 : IVec S_ 1 := (fun x v => Host.reduce IntOp.andi x v reducesTo_S500x1024_S_d0_1 h_S_) main_v11 main_c_3
  let main_v13 : IVec S_ 1 := andi main_v8 main_v12
  let main_c_4 : IVec S_ 32 := constantI S_ 32 4294867296#32
  let main_v14 : IVec S1024 32 := broadcastInDim S1024 ![] bcast_S_S1024 main_c_4
  let main_v15 : IVec S1024 1 := cmpi .sge main_arg0 main_v14
  let main_c_5 : IVec S_ 32 := constantI S_ 32 100000#32
  fn_part1 (F := F) main_arg0 main_arg1 main_v13 main_v15 main_c_5
-- ==== Kernel.lean ====
abbrev S1024 : Shape := ⟨1, ![1024]⟩
abbrev S100000x1024 : Shape := ⟨2, ![100000, 1024]⟩
abbrev S500x1024 : Shape := ⟨2, ![500, 1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x1024 : Shape := ⟨2, ![1024, 1024]⟩
abbrev S1024x100000 : Shape := ⟨2, ![1024, 100000]⟩
abbrev S2048x1024 : Shape := ⟨2, ![2048, 1024]⟩
abbrev S1024x2048 : Shape := ⟨2, ![1024, 2048]⟩

abbrev nBuf : Space → Nat
  | .hbm => 85
  | .vmem => 8
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x1024, .f32⟩
  | .hbm, ⟨3, _⟩ => ⟨S100000x1024, .f32⟩
  | .hbm, ⟨4, _⟩ => ⟨S500x1024, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1x1, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i1⟩
  | .hbm, ⟨22, _⟩ => ⟨S1024, .i1⟩
  | .hbm, ⟨23, _⟩ => ⟨S1024x1024, .f32⟩
  | .hbm, ⟨24, _⟩ => ⟨S1024x1024, .i1⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1, .i32⟩
  | .hbm, ⟨37, _⟩ => ⟨S_, .i32⟩
  | .hbm, ⟨38, _⟩ => ⟨S1024x1, .i32⟩
  | .hbm, ⟨39, _⟩ => ⟨S1024x1, .i1⟩
  | .hbm, ⟨40, _⟩ => ⟨S1x1, .i32⟩
  | .hbm, ⟨41, _⟩ => ⟨S1024x1, .i32⟩
  | .hbm, ⟨42, _⟩ => ⟨S1024x1, .i1⟩
  | .hbm, ⟨43, _⟩ => ⟨S1024x1, .i1⟩
  | .hbm, ⟨44, _⟩ => ⟨S_, .i1⟩
  | .hbm, ⟨45, _⟩ => ⟨S1024, .i1⟩
  | .hbm, ⟨46, _⟩ => ⟨S1024x1024, .f32⟩
  | .hbm, ⟨47, _⟩ => ⟨S1024x1024, .i1⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S1024x1, .i32⟩
  | .hbm, ⟨59, _⟩ => ⟨S1, .i32⟩
  | .hbm, ⟨60, _⟩ => ⟨S_, .i32⟩
  | .hbm, ⟨61, _⟩ => ⟨S1024x1, .i32⟩
  | .hbm, ⟨62, _⟩ => ⟨S1024x1, .i1⟩
  | .hbm, ⟨63, _⟩ => ⟨S1x1, .i32⟩
  | .hbm, ⟨64, _⟩ => ⟨S1024x1, .i32⟩
  | .hbm, ⟨65, _⟩ => ⟨S1024x1, .i1⟩
  | .hbm, ⟨66, _⟩ => ⟨S1024x1, .i1⟩
  | .hbm, ⟨67, _⟩ => ⟨S_, .i1⟩
  | .hbm, ⟨68, _⟩ => ⟨S1024, .i1⟩
  | .hbm, ⟨69, _⟩ => ⟨S1024x1024, .f32⟩
  | .hbm, ⟨70, _⟩ => ⟨S1024x1024, .i1⟩
  | .hbm, ⟨71, _⟩ => ⟨S_, .f32⟩
  | .hbm, ⟨72, _⟩ => ⟨S1024x1024, .f32⟩
  | .hbm, ⟨73, _⟩ => ⟨S1024x1024, .f32⟩
  | .hbm, ⟨74, _⟩ => ⟨S1024x1024, .f32⟩
  | .hbm, ⟨75, _⟩ => ⟨S1024x1024, .f32⟩
  | .hbm, ⟨76, _⟩ => ⟨S1024x1024, .f32⟩
  | .hbm, ⟨77, _⟩ => ⟨S1024x1024, .f32⟩
  | .hbm, ⟨78, _⟩ => ⟨S1024x1024, .f32⟩
  | .hbm, ⟨79, _⟩ => ⟨S1024x1024, .f32⟩
  | .hbm, ⟨80, _⟩ => ⟨S1024x1024, .f32⟩
  | .hbm, ⟨81, _⟩ => ⟨S1024x1024, .f32⟩
  | .hbm, ⟨82, _⟩ => ⟨S1024x1024, .bf16⟩
  | .hbm, ⟨83, _⟩ => ⟨S1024x1024, .bf16⟩
  | .hbm, ⟨84, _⟩ => ⟨S1024x100000, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S1024x2048, .f32⟩
  | .local _ .vmem, ⟨7, _⟩ => ⟨S1024x2048, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev main_v8 : Ref sig .tc := ⟨.hbm, 79, rfl⟩
abbrev main_v9 : Ref sig .tc := ⟨.hbm, 80, rfl⟩
abbrev main_v10 : Ref sig .tc := ⟨.hbm, 81, rfl⟩
abbrev main_v11 : Ref sig .tc := ⟨.hbm, 82, rfl⟩
abbrev main_v12 : Ref sig .tc := ⟨.hbm, 83, rfl⟩
abbrev main_v13 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x1024_0 : S1024.BroadcastsInDim S1024x1024 (![0] : Fin 1 → Fin S1024x1024.rank)
  bcast_S_S1024x1024 : S_.BroadcastsInDim S1024x1024 (![] : Fin 0 → Fin S1024x1024.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  iota_S2048x1024_d0_w32 : S2048x1024.Iotas .tc 32 [0]
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  gather_S100000x1024_S1024x1_S1024x1024_1_0_n_n_0_1_11024_wf : GatherDims.WF S100000x1024 S1024x1 S1024x1024 [1] [0] [] [0] [] 1 ![1, 1024]
  gather_S500x1024_S1024x1_S1024x1024_1_0_n_n_0_1_11024_wf : GatherDims.WF S500x1024 S1024x1 S1024x1024 [1] [0] [] [0] [] 1 ![1, 1024]
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x1024.size a < S100000x1024.size a
  hwx0_2 : ∀ i : grid0.Coords, EltTy.bits .f32 = 32 ∨ (Rect.unit (s := S100000x1024) (fun a => cc0_transform_2 i a * S2048x1024.size a) (fun a => (Pipeline.Clip.of (cc0_transform_2 i a) (S2048x1024.size a) (S100000x1024.size a)).extent (S2048x1024.size a)) fun a => Pipeline.Clip.inb (Pipeline.Clip.ok_of (hstart0_2 i a))).WholeWords (EltTy.packing .f32)
  hwxs0_2 : ∀ i : grid0.Coords, EltTy.bits .f32 = 32 ∨ (Rect.unit (s := S2048x1024) (fun _ => 0) (fun a => (Pipeline.Clip.of (cc0_transform_2 i a) (S2048x1024.size a) (S100000x1024.size a)).extent (S2048x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x1024.size a < S100000x1024.size a
  hwx0_3 : ∀ i : grid0.Coords, EltTy.bits .f32 = 32 ∨ (Rect.unit (s := S100000x1024) (fun a => cc0_transform_3 i a * S2048x1024.size a) (fun a => (Pipeline.Clip.of (cc0_transform_3 i a) (S2048x1024.size a) (S100000x1024.size a)).extent (S2048x1024.size a)) fun a => Pipeline.Clip.inb (Pipeline.Clip.ok_of (hstart0_3 i a))).WholeWords (EltTy.packing .f32)
  hwxs0_3 : ∀ i : grid0.Coords, EltTy.bits .f32 = 32 ∨ (Rect.unit (s := S2048x1024) (fun _ => 0) (fun a => (Pipeline.Clip.of (cc0_transform_3 i a) (S2048x1024.size a) (S100000x1024.size a)).extent (S2048x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x2048.size a < S1024x100000.size a
  hwx0_4 : ∀ i : grid0.Coords, EltTy.bits .f32 = 32 ∨ (Rect.unit (s := S1024x100000) (fun a => cc0_transform_4 i a * S1024x2048.size a) (fun a => (Pipeline.Clip.of (cc0_transform_4 i a) (S1024x2048.size a) (S1024x100000.size a)).extent (S1024x2048.size a)) fun a => Pipeline.Clip.inb (Pipeline.Clip.ok_of (hstart0_4 i a))).WholeWords (EltTy.packing .f32)
  hwxs0_4 : ∀ i : grid0.Coords, EltTy.bits .f32 = 32 ∨ (Rect.unit (s := S1024x2048) (fun _ => 0) (fun a => (Pipeline.Clip.of (cc0_transform_4 i a) (S1024x2048.size a) (S1024x100000.size a)).extent (S1024x2048.size a)) fun a => (Nat.zero_add _).trans_le (Pipeline.Clip.extent_le (Pipeline.Clip.ok_of (hstart0_4 i a)))).WholeWords (EltTy.packing .f32)

variable [Facts₀]

def gather_S100000x1024_S1024x1_S1024x1024_1_0_n_n_0_1_11024 : GatherDims S100000x1024 S1024x1 S1024x1024 where
  offsetDims := [1]
  collapsedSliceDims := [0]
  operandBatchingDims := []
  startIndicesBatchingDims := []
  startIndexMap := [0]
  indexVectorDim := 1
  sliceSizes := ![1, 1024]
  wf := gather_S100000x1024_S1024x1_S1024x1024_1_0_n_n_0_1_11024_wf
def gather_S500x1024_S1024x1_S1024x1024_1_0_n_n_0_1_11024 : GatherDims S500x1024 S1024x1 S1024x1024 where
  offsetDims := [1]
  collapsedSliceDims := [0]
  operandBatchingDims := []
  startIndicesBatchingDims := []
  startIndexMap := [0]
  indexVectorDim := 1
  sliceSizes := ![1, 1024]
  wf := gather_S500x1024_S1024x1_S1024x1024_1_0_n_n_0_1_11024_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v11) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S2048x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S2048x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v13) S1024x2048.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024 : Shape := ⟨1, ![1024]⟩
abbrev S100000x1024 : Shape := ⟨2, ![100000, 1024]⟩
abbrev S500x1024 : Shape := ⟨2, ![500, 1024]⟩
abbrev S_ : Shape := ⟨0, ![]⟩
abbrev S1024x1 : Shape := ⟨2, ![1024, 1]⟩
abbrev S1024x1024 : Shape := ⟨2, ![1024, 1024]⟩
abbrev S1024x100000 : Shape := ⟨2, ![1024, 100000]⟩

abbrev nBuf : Space → Nat
  | .hbm => 43
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x1024, .f32⟩
  | .hbm, ⟨3, _⟩ => ⟨S100000x1024, .f32⟩
  | .hbm, ⟨4, _⟩ => ⟨S500x1024, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x1024, .f32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x1024, .f32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x100000, .f32⟩
  | .hbm, ⟨41, _⟩ => ⟨S1024x100000, .f32⟩
  | .hbm, ⟨42, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  gather_S100000x1024_S1024x1_S1024x1024_1_0_n_n_0_1_11024_wf : GatherDims.WF S100000x1024 S1024x1 S1024x1024 [1] [0] [] [0] [] 1 ![1, 1024]
  gather_S500x1024_S1024x1_S1024x1024_1_0_n_n_0_1_11024_wf : GatherDims.WF S500x1024 S1024x1 S1024x1024 [1] [0] [] [0] [] 1 ![1, 1024]
  dot_S1024x1024_S100000x1024_S1024x100000_1_1_0_0_n_n_wf : DotDims.WF S1024x1024 S100000x1024 S1024x100000 [1] [1] [0] [0] [] []

variable [Facts₀]

def gather_S100000x1024_S1024x1_S1024x1024_1_0_n_n_0_1_11024 : GatherDims S100000x1024 S1024x1 S1024x1024 where
  offsetDims := [1]
  collapsedSliceDims := [0]
  operandBatchingDims := []
  startIndicesBatchingDims := []
  startIndexMap := [0]
  indexVectorDim := 1
  sliceSizes := ![1, 1024]
  wf := gather_S100000x1024_S1024x1_S1024x1024_1_0_n_n_0_1_11024_wf
def gather_S500x1024_S1024x1_S1024x1024_1_0_n_n_0_1_11024 : GatherDims S500x1024 S1024x1 S1024x1024 where
  offsetDims := [1]
  collapsedSliceDims := [0]
  operandBatchingDims := []
  startIndicesBatchingDims := []
  startIndexMap := [0]
  indexVectorDim := 1
  sliceSizes := ![1, 1024]
  wf := gather_S500x1024_S1024x1_S1024x1024_1_0_n_n_0_1_11024_wf
def dot_S1024x1024_S100000x1024_S1024x100000_1_1_0_0_n_n : DotDims S1024x1024 S100000x1024 S1024x100000 where
  lhsContracting := [1]
  rhsContracting := [1]
  lhsNonContracting := [0]
  rhsNonContracting := [0]
  lhsBatch := []
  rhsBatch := []
  wf := dot_S1024x1024_S100000x1024_S1024x100000_1_1_0_0_n_n_wf

class Facts : Prop extends Facts₀ where

variable [Facts]
-- ==== Proof.RowGuard.lean ====
/-
  The entity tile's row guard. A grid point `p` of the 49 handles the 2048 entity rows `2048·p … 2048·p + 2047`;
  the body compares each tile row's global index `j + 2048·p` (a 32-bit signed word) with the entity count 100000
  and replaces the rows at or past it by zeros before they reach the matrix unit. Two facts:
  the mask at tile row `j` is set exactly when `j + 2048·p < 100000` (no word wraps: the sum is below 2¹⁷), and
  consequently two tiles that agree on the rows inside the table are ONE tile after the guard, whatever the rows
  past the table's end hold.
-/
import Idealize.ShloMosaic.PureOps

namespace Cert.RowGuard

open Idealize.ShloMosaic

abbrev Tile : Shape := ⟨2, ![2048, 1024]⟩

/-- The mask the body computes at grid point `p`: row index plus `2048·p`, compared (signed) with 100000. -/
def rowMask (p : Nat) (h : Tile.Iotas .tc 32 [0]) : IVec Tile 1 :=
  cmpi .slt (addi (iota .tc Tile 32 [0] h) (broadcast Tile (Scalar.muli (BitVec.ofNat 32 p) 2048#32))) (broadcast Tile 100000#32)

/-- The word comparison is the comparison of the numbers: for a tile row `j < 2048` and a point `p < 49` the
    global row index `j + 2048·p` is below 2¹⁷, so neither the product, the sum nor the signed reading wraps. -/
theorem word_lt (j p : Nat) (hj : j < 2048) (hp : p < 49) :
    (BitVec.ofNat 32 j + BitVec.ofNat 32 p * 2048#32).slt 100000#32 = decide (j + 2048 * p < 100000) := by
  have e : BitVec.ofNat 32 j + BitVec.ofNat 32 p * 2048#32 = BitVec.ofNat 32 (j + 2048 * p) := by
    apply BitVec.eq_of_toNat_eq
    simp only [BitVec.toNat_add, BitVec.toNat_mul, BitVec.toNat_ofNat]
    omega
  rw [e, BitVec.slt]
  have h1 : (BitVec.ofNat 32 (j + 2048 * p)).toInt = ((j + 2048 * p : Nat) : Int) := by
    rw [BitVec.toInt_eq_toNat_cond, BitVec.toNat_ofNat]
    have hm : (j + 2048 * p) % 2 ^ 32 = j + 2048 * p := Nat.mod_eq_of_lt (by omega)
    rw [hm, if_pos (by omega)]
  have h2 : (100000#32 : BitVec 32).toInt = 100000 := by decide
  rw [h1, h2]
  simp only [decide_eq_decide]
  omega

theorem rowMask_apply (p : Nat) (hp : p < 49) (h : Tile.Iotas .tc 32 [0]) (j : Tile.Idx) :
    rowMask p h j = 1 ↔ (j 0).val + 2048 * p < 100000 := by
  have hj : (j 0).val < 2048 := (j 0).isLt
  unfold rowMask cmpi addi iota broadcast Scalar.muli IntOp.cmpi IntOp.addi IntOp.muli
  simp only [List.foldl_cons, List.foldl_nil, Nat.zero_mul, Nat.zero_add]
  rw [word_lt _ _ hj hp]
  by_cases hlt : (j 0).val + 2048 * p < 100000
  · simp [hlt]
  · simp [hlt]

/-- Two tiles equal on the rows inside the entity table are equal after the guard. -/
theorem select_congr {α : Type} (p : Nat) (hp : p < 49) (h : Tile.Iotas .tc 32 [0]) (X Y Z : Tile.Idx → α)
    (hXY : ∀ j : Tile.Idx, (j 0).val + 2048 * p < 100000 → X j = Y j) :
    select (rowMask p h) X Z = select (rowMask p h) Y Z := by
  funext j
  unfold select Scalar.select
  by_cases hm : rowMask p h j = 1
  · rw [if_pos hm, if_pos hm]; exact hXY j ((rowMask_apply p hp h j).mp hm)
  · rw [if_neg hm, if_neg hm]

end Cert.RowGuard
-- ==== Proof.ScoreTileBits.lean ====
/-
  The frame run of the score kernel, at any float instance.

  One pallas_call over a grid of 49 points. Point `t` stages the two rotated query matrices (1024 × 1024, the same
  block at every point), the 2048 entity rows `2048·t …` of the real and of the imaginary table (2048 × 1024 each),
  and writes the 1024 × 2048 block of scores of those entities. 100000 = 48·2048 + 1696, so the LAST point's entity
  tiles and score block overhang their arrays: the fetch fills only the tiles' first 1696 rows (the rows past them
  hold words nothing names), and the write-back keeps only the block's first 1696 columns.

  The body does not depend on those unnamed rows: it replaces every tile row whose global index is 100000 or more by
  zeros before the two products (Proof/RowGuard.lean), so what it stores is a function of the rows inside the tables
  alone. The proof data therefore names each buffer exactly: a query buffer holds its block, an entity buffer its
  tile filled out with zeros past the table's end, and the score buffer the body's payload of those — whatever the
  fetch left past the table's end.
-/
import proofs.«401201_j20873541059112_3_alg».proof.Proof.Gen.Kernel.Frame
import proofs.«401201_j20873541059112_3_alg».proof.Proof.Gen.Kernel.Skeleton
import proofs.«401201_j20873541059112_3_alg».proof.Proof.RowGuard
import Idealize.ShloMosaic.Lib.Pipeline.Frame
import Idealize.ShloMosaic.Lib.Pipeline.Value

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store go through a whole staging buffer -/

abbrev rQuery : Rect S1024x1024 := Rect.unit (s := S1024x1024) ![0, 0] S1024x1024.size inb_S1024x1024_S1024x1024_0_0
abbrev rTile : Rect S2048x1024 := Rect.unit (s := S2048x1024) ![0, 0] S2048x1024.size inb_S2048x1024_S2048x1024_0_0
abbrev rScore : Rect S1024x2048 := Rect.unit (s := S1024x2048) ![0, 0] S1024x2048.size inb_S1024x2048_S1024x2048_0_0

theorem zero2 : (![0, 0] : Fin 2 → Nat) = fun _ => 0 := funext fun a => by fin_cases a <;> rfl

/-- What the score buffer holds after the body, from what the four input buffers hold: its one store. -/
def scoreOf (i : grid0.Coords) (q0 q1 : Vec F S1024x1024 .bf16) (e0 e1 : Vec F S2048x1024 .f32) : Vec F S1024x2048 .f32 :=
  View.canon [⟨rScore, k0_pay1 i (View.ld e0 rTile) (View.ld e1 rTile) (View.ld q0 rQuery) (View.ld q1 rQuery)⟩]

theorem cover_score (p0 : Vec F S1024x2048 .f32) (y : S1024x2048.Idx) :
    ∃ pc ∈ ([⟨rScore, p0⟩] : List (View.Piece (Elt F) S1024x2048 .f32)), y ∈ pc.1.set :=
  ⟨_, List.mem_singleton_self _, View.mem_set_unit_zero zero2 inb_S1024x2048_S1024x2048_0_0 y⟩

/-- The store covers the buffer and every load reads a whole buffer: the score buffer ends at the payload of the
    buffers' contents. -/
theorem scoreOf_eq (i : grid0.Coords) (q0 q1 : Vec F S1024x1024 .bf16) (e0 e1 : Vec F S2048x1024 .f32) :
    scoreOf i q0 q1 e0 e1 = k0_pay1 i e0 e1 q0 q1 := by
  unfold scoreOf
  rw [View.canon_unit_zero zero2]
  simp only [View.ld_unit_zero (S := S2048x1024) zero2, View.ld_unit_zero (S := S1024x1024) zero2]

/-! ## The body's triple -/

set_option maxHeartbeats 1000000 in
/-- The kernel body on whole staging memrefs, the four inputs' at read contents and the score buffer's at anything,
    runs to the continuation holding the inputs' as they were and the score buffer's at `scoreOf` of them. -/
theorem sound_kernel (c : Dev nD) (E : Set ℕ) (i : grid0.Coords)
    (arg1 : Memref sig .tc .vmem S1024x1024 .bf16) (harg1 : arg1.IsWhole) (arg2 : Memref sig .tc .vmem S1024x1024 .bf16) (harg2 : arg2.IsWhole)
    (arg3 : Memref sig .tc .vmem S2048x1024 .f32) (harg3 : arg3.IsWhole) (arg4 : Memref sig .tc .vmem S2048x1024 .f32) (harg4 : arg4.IsWhole)
    (arg5 : Memref sig .tc .vmem S1024x2048 .f32) (harg5 : arg5.IsWhole)
    (q0 q1 : Vec F S1024x1024 .bf16) (e0 e1 : Vec F S2048x1024 .f32) (K : PUnit → sProp 𝕄) :
    iprop(owns (c : Thread nD τ) arg1 fullShare q0 ∗ owns (c : Thread nD τ) arg2 fullShare q1
        ∗ owns (c : Thread nD τ) arg3 fullShare e0 ∗ owns (c : Thread nD τ) arg4 fullShare e1
        ∗ (∃ d, owns (c : Thread nD τ) arg5 fullShare d)
        ∗ (iprop(owns (c : Thread nD τ) arg1 fullShare q0 ∗ owns (c : Thread nD τ) arg2 fullShare q1
            ∗ owns (c : Thread nD τ) arg3 fullShare e0 ∗ owns (c : Thread nD τ) arg4 fullShare e1
            ∗ owns (c : Thread nD τ) arg5 fullShare (scoreOf i q0 q1 e0 e1)) -∗ K ⟨⟩))
      ⊢ wp frame (wpE (defs₀ (F := F)) Variants.none c none) E
          (cc0__score_kernel i arg1 harg1 arg2 harg2 arg3 harg3 arg4 harg4 arg5 harg5) K := by
  simp only [cc0__score_kernel_eq_skeleton]; unfold cc0__score_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_score _)

/-! ## Which rows of a tile a fetch fills, and the guard -/

/-- The grid has one axis: a point's coordinate is its number. -/
theorem coord_val : ∀ t : Fin cfg0.N, ((grid0.coords t) 0).val = t.val :=
  (by decide +kernel : ∀ t : Fin grid0.N, ((grid0.coords t) 0).val = t.val)

/-- At point `t` the fetch of an entity tile moves the tile's rows `j` with `j + 2048·t < 100000` (all 2048 of
    them but at the last point, 1696 there), every column; the write-back of the score block the same columns. -/
theorem xsize_re : ∀ t : Fin cfg0.N, win0_2.xsize (grid0.coords t) 0 = min 2048 (100000 - 2048 * t.val) ∧ win0_2.xsize (grid0.coords t) 1 = 1024 :=
  (by decide +kernel : ∀ t : Fin grid0.N, win0_2.xsize (grid0.coords t) 0 = min 2048 (100000 - 2048 * t.val) ∧ win0_2.xsize (grid0.coords t) 1 = 1024)
theorem xsize_im : ∀ t : Fin cfg0.N, win0_3.xsize (grid0.coords t) 0 = min 2048 (100000 - 2048 * t.val) ∧ win0_3.xsize (grid0.coords t) 1 = 1024 :=
  (by decide +kernel : ∀ t : Fin grid0.N, win0_3.xsize (grid0.coords t) 0 = min 2048 (100000 - 2048 * t.val) ∧ win0_3.xsize (grid0.coords t) 1 = 1024)

/-- A tile row inside the table is one the fetch moves. -/
theorem moved_re (t : Fin cfg0.N) (j : S2048x1024.Idx) (h : (j 0).val + 2048 * t.val < 100000) : win0_2.moved (grid0.coords t) j = true := by
  rw [Window.moved_iff]
  have h0 : (j 0).val < 2048 := (j 0).isLt
  have h1 : (j 1).val < 1024 := (j 1).isLt
  intro a
  match a with
  | ⟨0, _⟩ => show (j 0).val < win0_2.xsize (grid0.coords t) 0; rw [(xsize_re t).1]; omega
  | ⟨1, _⟩ => show (j 1).val < win0_2.xsize (grid0.coords t) 1; rw [(xsize_re t).2]; exact h1
theorem moved_im (t : Fin cfg0.N) (j : S2048x1024.Idx) (h : (j 0).val + 2048 * t.val < 100000) : win0_3.moved (grid0.coords t) j = true := by
  rw [Window.moved_iff]
  have h0 : (j 0).val < 2048 := (j 0).isLt
  have h1 : (j 1).val < 1024 := (j 1).isLt
  intro a
  match a with
  | ⟨0, _⟩ => show (j 0).val < win0_3.xsize (grid0.coords t) 0; rw [(xsize_im t).1]; omega
  | ⟨1, _⟩ => show (j 1).val < win0_3.xsize (grid0.coords t) 1; rw [(xsize_im t).2]; exact h1

/-- THE GUARD, on the payload: two pairs of tiles that agree on the rows inside the tables give one score block. -/
theorem pay_guard (t : Fin cfg0.N) (q0 q1 : Vec F S1024x1024 .bf16) (e0 e0' e1 e1' : Vec F S2048x1024 .f32)
    (h0 : ∀ j : S2048x1024.Idx, (j 0).val + 2048 * t.val < 100000 → e0 j = e0' j)
    (h1 : ∀ j : S2048x1024.Idx, (j 0).val + 2048 * t.val < 100000 → e1 j = e1' j) :
    k0_pay1 (grid0.coords t) e0 e1 q0 q1 = k0_pay1 (grid0.coords t) e0' e1' q0 q1 := by
  have hp : ((grid0.coords t) 0).val < 49 := by rw [coord_val]; exact t.isLt
  have g0 : select (cmpi .slt (addi (iota .tc S2048x1024 32 [0] iota_S2048x1024_d0_w32) (broadcast S2048x1024 (Scalar.muli (BitVec.ofNat 32 ((grid0.coords t) 0).val) 2048#32))) (broadcast S2048x1024 100000#32))
        e0 (broadcast S2048x1024 (Scalar.ofBits .f32 0x00000000#32 : F .f32))
      = select (cmpi .slt (addi (iota .tc S2048x1024 32 [0] iota_S2048x1024_d0_w32) (broadcast S2048x1024 (Scalar.muli (BitVec.ofNat 32 ((grid0.coords t) 0).val) 2048#32))) (broadcast S2048x1024 100000#32))
        e0' (broadcast S2048x1024 (Scalar.ofBits .f32 0x00000000#32 : F .f32)) :=
    Cert.RowGuard.select_congr _ hp iota_S2048x1024_d0_w32 e0 e0' _ (fun j hj => h0 j (by rw [coord_val] at hj; exact hj))
  have g1 : select (cmpi .slt (addi (iota .tc S2048x1024 32 [0] iota_S2048x1024_d0_w32) (broadcast S2048x1024 (Scalar.muli (BitVec.ofNat 32 ((grid0.coords t) 0).val) 2048#32))) (broadcast S2048x1024 100000#32))
        e1 (broadcast S2048x1024 (Scalar.ofBits .f32 0x00000000#32 : F .f32))
      = select (cmpi .slt (addi (iota .tc S2048x1024 32 [0] iota_S2048x1024_d0_w32) (broadcast S2048x1024 (Scalar.muli (BitVec.ofNat 32 ((grid0.coords t) 0).val) 2048#32))) (broadcast S2048x1024 100000#32))
        e1' (broadcast S2048x1024 (Scalar.ofBits .f32 0x00000000#32 : F .f32)) :=
    Cert.RowGuard.select_congr _ hp iota_S2048x1024_d0_w32 e1 e1' _ (fun j hj => h1 j (by rw [coord_val] at hj; exact hj))
  unfold k0_pay1
  dsimp only
  rw [g0, g1]

/-! ## The pipeline's proof data -/

/-- An entity tile filled out with zeros past the table's end. -/
def zeroTile : S2048x1024.Idx → Elt F .f32 := fun _ => Scalar.ofBits .f32 0x00000000#32

def tileRe (c : Dev nD) (t : Fin cfg0.N) : Vec F S2048x1024 .f32 := win0_2.fill (grid0.coords t) zeroTile (iblk m c 2 t)
def tileIm (c : Dev nD) (t : Fin cfg0.N) : Vec F S2048x1024 .f32 := win0_3.fill (grid0.coords t) zeroTile (iblk m c 3 t)

/-- The score block point `t` computes. -/
def scoreBlk (c : Dev nD) (t : Fin cfg0.N) : Vec F S1024x2048 .f32 :=
  k0_pay1 (grid0.coords t) (tileRe m c t) (tileIm m c t) (iblk m c 0 t) (iblk m c 1 t)

/-- The proof data of the one pipeline on core `c`: the arrays as the region finds them; after the body at point
    `t` the query buffers at their blocks, the entity buffers at their zero-filled tiles, the score buffer at the
    point's score block; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileRe m c t
    | ⟨3, _⟩ => tileIm m c t
    | ⟨4, _⟩ => scoreBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tileRe m c t := by dsimp only [dats]
theorem after0_3 (c : Dev nD) (t : Fin cfg0.N) : (dats m 0 c).after 3 t = tileIm m c t := by dsimp only [dats]
theorem after0_4 (c : Dev nD) (t : Fin cfg0.N) : (dats m 0 c).after 4 t = scoreBlk m c t := by dsimp only [dats]

/-! ## What the body finds in each buffer -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- An entity buffer is fetched at every point: it holds its tile on the rows the fetch moved, and `d` — anything —
    on the rows past the table's end. -/
theorem before0_2 (c : Dev nD) (t : Fin cfg0.N) (d) :
    (dats m 0 c).before 2 t d = win0_2.fill (grid0.coords t) d (iblk m c 2 t) := by
  rw [Dat.before_fetched _ 2 t (fetch0_2 t) d]
  unfold Dat.fetched Dat.blockOf iblk
  rw [A_eq]
theorem before0_3 (c : Dev nD) (t : Fin cfg0.N) (d) :
    (dats m 0 c).before 3 t d = win0_3.fill (grid0.coords t) d (iblk m c 3 t) := by
  rw [Dat.before_fetched _ 3 t (fetch0_3 t) d]
  unfold Dat.fetched Dat.blockOf iblk
  rw [A_eq]

/-- The score buffer is written back at every point: the body finds it at anything. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns: the query buffers at their blocks; each buffer whose block may overhang its array stated on
    the part its transfers move only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t)))))

/-- The body at any point. The entity buffers arrive holding their tiles filled out with anything; the body leaves
    them so, which on the moved rows is the zero-filled tile's; and what it stores in the score buffer is, by the
    guard, the payload of the zero-filled tiles: the point's score block exactly. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  have c2 : win0_2.cut (grid0.coords t) (tileRe m c t) = iblk m c 2 t := win0_2.cut_fill _ _ _
  have c3 : win0_3.cut (grid0.coords t) (tileIm m c t) = iblk m c 3 t := win0_3.cut_fill _ _ _
  have hs : scoreOf (grid0.coords t) (iblk m c 0 t) (iblk m c 1 t) (win0_2.fill (grid0.coords t) d2 (iblk m c 2 t)) (win0_3.fill (grid0.coords t) d3 (iblk m c 3 t))
      = scoreBlk m c t := by
    rw [scoreOf_eq]
    unfold scoreBlk tileRe tileIm
    refine pay_guard t _ _ _ _ _ _ (fun j hj => ?_) (fun j hj => ?_)
    · unfold Window.fill; rw [dif_pos (moved_re t j hj), dif_pos (moved_re t j hj)]
    · unfold Window.fill; rw [dif_pos (moved_im t j hj), dif_pos (moved_im t j hj)]
  isplitl [H2]
  · iexists d2
    change _ ⊢ owns (c : Thread nD τ) (st0_2 t) fullShare (win0_2.fill (grid0.coords t) d2 (win0_2.cut (grid0.coords t) (tileRe m c t)))
    rw [c2]; try iexact H2
  isplitl [H3]
  · iexists d3
    change _ ⊢ owns (c : Thread nD τ) (st0_3 t) fullShare (win0_3.fill (grid0.coords t) d3 (win0_3.cut (grid0.coords t) (tileIm m c t)))
    rw [c3]; try iexact H3
  · iexists scoreBlk m c t
    change _ ⊢ owns (c : Thread nD τ) (st0_4 t) fullShare (win0_4.fill (grid0.coords t) (scoreBlk m c t) (win0_4.cut (grid0.coords t) (scoreBlk m c t)))
    rw [win0_4.fill_cut, ← hs]; try iexact H4

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every array of the pipeline at what the library computes from the proof
    data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME: the program runs to the end, faults nowhere, and leaves its five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Tile

end
-- ==== Proof.ScoreTileIdeal.lean ====
/-
  The frame run of the score kernel, at any float instance.

  One pallas_call over a grid of 49 points. Point `t` stages the two rotated query matrices (1024 × 1024, the same
  block at every point), the 2048 entity rows `2048·t …` of the real and of the imaginary table (2048 × 1024 each),
  and writes the 1024 × 2048 block of scores of those entities. 100000 = 48·2048 + 1696, so the LAST point's entity
  tiles and score block overhang their arrays: the fetch fills only the tiles' first 1696 rows (the rows past them
  hold words nothing names), and the write-back keeps only the block's first 1696 columns.

  The body does not depend on those unnamed rows: it replaces every tile row whose global index is 100000 or more by
  zeros before the two products (Proof/RowGuard.lean), so what it stores is a function of the rows inside the tables
  alone. The proof data therefore names each buffer exactly: a query buffer holds its block, an entity buffer its
  tile filled out with zeros past the table's end, and the score buffer the body's payload of those — whatever the
  fetch left past the table's end.
-/
import proofs.«401201_j20873541059112_3_alg».proof.Proof.Gen.KernelIdeal.Frame
import proofs.«401201_j20873541059112_3_alg».proof.Proof.Gen.KernelIdeal.Skeleton
import proofs.«401201_j20873541059112_3_alg».proof.Proof.RowGuard
import Idealize.ShloMosaic.Lib.Pipeline.Frame
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store go through a whole staging buffer -/

abbrev rQuery : Rect S1024x1024 := Rect.unit (s := S1024x1024) ![0, 0] S1024x1024.size inb_S1024x1024_S1024x1024_0_0
abbrev rTile : Rect S2048x1024 := Rect.unit (s := S2048x1024) ![0, 0] S2048x1024.size inb_S2048x1024_S2048x1024_0_0
abbrev rScore : Rect S1024x2048 := Rect.unit (s := S1024x2048) ![0, 0] S1024x2048.size inb_S1024x2048_S1024x2048_0_0

theorem zero2 : (![0, 0] : Fin 2 → Nat) = fun _ => 0 := funext fun a => by fin_cases a <;> rfl

/-- What the score buffer holds after the body, from what the four input buffers hold: its one store. -/
def scoreOf (i : grid0.Coords) (q0 q1 : Vec F S1024x1024 .bf16) (e0 e1 : Vec F S2048x1024 .f32) : Vec F S1024x2048 .f32 :=
  View.canon [⟨rScore, k0_pay1 i (View.ld e0 rTile) (View.ld e1 rTile) (View.ld q0 rQuery) (View.ld q1 rQuery)⟩]

theorem cover_score (p0 : Vec F S1024x2048 .f32) (y : S1024x2048.Idx) :
    ∃ pc ∈ ([⟨rScore, p0⟩] : List (View.Piece (Elt F) S1024x2048 .f32)), y ∈ pc.1.set :=
  ⟨_, List.mem_singleton_self _, View.mem_set_unit_zero zero2 inb_S1024x2048_S1024x2048_0_0 y⟩

/-- The store covers the buffer and every load reads a whole buffer: the score buffer ends at the payload of the
    buffers' contents. -/
theorem scoreOf_eq (i : grid0.Coords) (q0 q1 : Vec F S1024x1024 .bf16) (e0 e1 : Vec F S2048x1024 .f32) :
    scoreOf i q0 q1 e0 e1 = k0_pay1 i e0 e1 q0 q1 := by
  unfold scoreOf
  rw [View.canon_unit_zero zero2]
  simp only [View.ld_unit_zero (S := S2048x1024) zero2, View.ld_unit_zero (S := S1024x1024) zero2]

/-! ## The body's triple -/

set_option maxHeartbeats 1000000 in
/-- The kernel body on whole staging memrefs, the four inputs' at read contents and the score buffer's at anything,
    runs to the continuation holding the inputs' as they were and the score buffer's at `scoreOf` of them. -/
theorem sound_kernel (c : Dev nD) (E : Set ℕ) (i : grid0.Coords)
    (arg1 : Memref sig .tc .vmem S1024x1024 .bf16) (harg1 : arg1.IsWhole) (arg2 : Memref sig .tc .vmem S1024x1024 .bf16) (harg2 : arg2.IsWhole)
    (arg3 : Memref sig .tc .vmem S2048x1024 .f32) (harg3 : arg3.IsWhole) (arg4 : Memref sig .tc .vmem S2048x1024 .f32) (harg4 : arg4.IsWhole)
    (arg5 : Memref sig .tc .vmem S1024x2048 .f32) (harg5 : arg5.IsWhole)
    (q0 q1 : Vec F S1024x1024 .bf16) (e0 e1 : Vec F S2048x1024 .f32) (K : PUnit → sProp 𝕄) :
    iprop(owns (c : Thread nD τ) arg1 fullShare q0 ∗ owns (c : Thread nD τ) arg2 fullShare q1
        ∗ owns (c : Thread nD τ) arg3 fullShare e0 ∗ owns (c : Thread nD τ) arg4 fullShare e1
        ∗ (∃ d, owns (c : Thread nD τ) arg5 fullShare d)
        ∗ (iprop(owns (c : Thread nD τ) arg1 fullShare q0 ∗ owns (c : Thread nD τ) arg2 fullShare q1
            ∗ owns (c : Thread nD τ) arg3 fullShare e0 ∗ owns (c : Thread nD τ) arg4 fullShare e1
            ∗ owns (c : Thread nD τ) arg5 fullShare (scoreOf i q0 q1 e0 e1)) -∗ K ⟨⟩))
      ⊢ wp frame (wpE (defs₀ (F := F)) Variants.none c none) E
          (cc0__score_kernel i arg1 harg1 arg2 harg2 arg3 harg3 arg4 harg4 arg5 harg5) K := by
  simp only [cc0__score_kernel_eq_skeleton]; unfold cc0__score_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_score _)

/-! ## Which rows of a tile a fetch fills, and the guard -/

/-- The grid has one axis: a point's coordinate is its number. -/
theorem coord_val : ∀ t : Fin cfg0.N, ((grid0.coords t) 0).val = t.val :=
  (by decide +kernel : ∀ t : Fin grid0.N, ((grid0.coords t) 0).val = t.val)

/-- At point `t` the fetch of an entity tile moves the tile's rows `j` with `j + 2048·t < 100000` (all 2048 of
    them but at the last point, 1696 there), every column; the write-back of the score block the same columns. -/
theorem xsize_re : ∀ t : Fin cfg0.N, win0_2.xsize (grid0.coords t) 0 = min 2048 (100000 - 2048 * t.val) ∧ win0_2.xsize (grid0.coords t) 1 = 1024 :=
  (by decide +kernel : ∀ t : Fin grid0.N, win0_2.xsize (grid0.coords t) 0 = min 2048 (100000 - 2048 * t.val) ∧ win0_2.xsize (grid0.coords t) 1 = 1024)
theorem xsize_im : ∀ t : Fin cfg0.N, win0_3.xsize (grid0.coords t) 0 = min 2048 (100000 - 2048 * t.val) ∧ win0_3.xsize (grid0.coords t) 1 = 1024 :=
  (by decide +kernel : ∀ t : Fin grid0.N, win0_3.xsize (grid0.coords t) 0 = min 2048 (100000 - 2048 * t.val) ∧ win0_3.xsize (grid0.coords t) 1 = 1024)

/-- A tile row inside the table is one the fetch moves. -/
theorem moved_re (t : Fin cfg0.N) (j : S2048x1024.Idx) (h : (j 0).val + 2048 * t.val < 100000) : win0_2.moved (grid0.coords t) j = true := by
  rw [Window.moved_iff]
  have h0 : (j 0).val < 2048 := (j 0).isLt
  have h1 : (j 1).val < 1024 := (j 1).isLt
  intro a
  match a with
  | ⟨0, _⟩ => show (j 0).val < win0_2.xsize (grid0.coords t) 0; rw [(xsize_re t).1]; omega
  | ⟨1, _⟩ => show (j 1).val < win0_2.xsize (grid0.coords t) 1; rw [(xsize_re t).2]; exact h1
theorem moved_im (t : Fin cfg0.N) (j : S2048x1024.Idx) (h : (j 0).val + 2048 * t.val < 100000) : win0_3.moved (grid0.coords t) j = true := by
  rw [Window.moved_iff]
  have h0 : (j 0).val < 2048 := (j 0).isLt
  have h1 : (j 1).val < 1024 := (j 1).isLt
  intro a
  match a with
  | ⟨0, _⟩ => show (j 0).val < win0_3.xsize (grid0.coords t) 0; rw [(xsize_im t).1]; omega
  | ⟨1, _⟩ => show (j 1).val < win0_3.xsize (grid0.coords t) 1; rw [(xsize_im t).2]; exact h1

/-- THE GUARD, on the payload: two pairs of tiles that agree on the rows inside the tables give one score block. -/
theorem pay_guard (t : Fin cfg0.N) (q0 q1 : Vec F S1024x1024 .bf16) (e0 e0' e1 e1' : Vec F S2048x1024 .f32)
    (h0 : ∀ j : S2048x1024.Idx, (j 0).val + 2048 * t.val < 100000 → e0 j = e0' j)
    (h1 : ∀ j : S2048x1024.Idx, (j 0).val + 2048 * t.val < 100000 → e1 j = e1' j) :
    k0_pay1 (grid0.coords t) e0 e1 q0 q1 = k0_pay1 (grid0.coords t) e0' e1' q0 q1 := by
  have hp : ((grid0.coords t) 0).val < 49 := by rw [coord_val]; exact t.isLt
  have g0 : select (cmpi .slt (addi (iota .tc S2048x1024 32 [0] iota_S2048x1024_d0_w32) (broadcast S2048x1024 (Scalar.muli (BitVec.ofNat 32 ((grid0.coords t) 0).val) 2048#32))) (broadcast S2048x1024 100000#32))
        e0 (broadcast S2048x1024 (Scalar.ofBits .f32 0x00000000#32 : F .f32))
      = select (cmpi .slt (addi (iota .tc S2048x1024 32 [0] iota_S2048x1024_d0_w32) (broadcast S2048x1024 (Scalar.muli (BitVec.ofNat 32 ((grid0.coords t) 0).val) 2048#32))) (broadcast S2048x1024 100000#32))
        e0' (broadcast S2048x1024 (Scalar.ofBits .f32 0x00000000#32 : F .f32)) :=
    Cert.RowGuard.select_congr _ hp iota_S2048x1024_d0_w32 e0 e0' _ (fun j hj => h0 j (by rw [coord_val] at hj; exact hj))
  have g1 : select (cmpi .slt (addi (iota .tc S2048x1024 32 [0] iota_S2048x1024_d0_w32) (broadcast S2048x1024 (Scalar.muli (BitVec.ofNat 32 ((grid0.coords t) 0).val) 2048#32))) (broadcast S2048x1024 100000#32))
        e1 (broadcast S2048x1024 (Scalar.ofBits .f32 0x00000000#32 : F .f32))
      = select (cmpi .slt (addi (iota .tc S2048x1024 32 [0] iota_S2048x1024_d0_w32) (broadcast S2048x1024 (Scalar.muli (BitVec.ofNat 32 ((grid0.coords t) 0).val) 2048#32))) (broadcast S2048x1024 100000#32))
        e1' (broadcast S2048x1024 (Scalar.ofBits .f32 0x00000000#32 : F .f32)) :=
    Cert.RowGuard.select_congr _ hp iota_S2048x1024_d0_w32 e1 e1' _ (fun j hj => h1 j (by rw [coord_val] at hj; exact hj))
  unfold k0_pay1
  dsimp only
  rw [g0, g1]

/-! ## The pipeline's proof data -/

/-- An entity tile filled out with zeros past the table's end. -/
def zeroTile : S2048x1024.Idx → Elt F .f32 := fun _ => Scalar.ofBits .f32 0x00000000#32

def tileRe (c : Dev nD) (t : Fin cfg0.N) : Vec F S2048x1024 .f32 := win0_2.fill (grid0.coords t) zeroTile (iblk m c 2 t)
def tileIm (c : Dev nD) (t : Fin cfg0.N) : Vec F S2048x1024 .f32 := win0_3.fill (grid0.coords t) zeroTile (iblk m c 3 t)

/-- The score block point `t` computes. -/
def scoreBlk (c : Dev nD) (t : Fin cfg0.N) : Vec F S1024x2048 .f32 :=
  k0_pay1 (grid0.coords t) (tileRe m c t) (tileIm m c t) (iblk m c 0 t) (iblk m c 1 t)

/-- The proof data of the one pipeline on core `c`: the arrays as the region finds them; after the body at point
    `t` the query buffers at their blocks, the entity buffers at their zero-filled tiles, the score buffer at the
    point's score block; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileRe m c t
    | ⟨3, _⟩ => tileIm m c t
    | ⟨4, _⟩ => scoreBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tileRe m c t := by dsimp only [dats]
theorem after0_3 (c : Dev nD) (t : Fin cfg0.N) : (dats m 0 c).after 3 t = tileIm m c t := by dsimp only [dats]
theorem after0_4 (c : Dev nD) (t : Fin cfg0.N) : (dats m 0 c).after 4 t = scoreBlk m c t := by dsimp only [dats]

/-! ## What the body finds in each buffer -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- An entity buffer is fetched at every point: it holds its tile on the rows the fetch moved, and `d` — anything —
    on the rows past the table's end. -/
theorem before0_2 (c : Dev nD) (t : Fin cfg0.N) (d) :
    (dats m 0 c).before 2 t d = win0_2.fill (grid0.coords t) d (iblk m c 2 t) := by
  rw [Dat.before_fetched _ 2 t (fetch0_2 t) d]
  unfold Dat.fetched Dat.blockOf iblk
  rw [A_eq]
theorem before0_3 (c : Dev nD) (t : Fin cfg0.N) (d) :
    (dats m 0 c).before 3 t d = win0_3.fill (grid0.coords t) d (iblk m c 3 t) := by
  rw [Dat.before_fetched _ 3 t (fetch0_3 t) d]
  unfold Dat.fetched Dat.blockOf iblk
  rw [A_eq]

/-- The score buffer is written back at every point: the body finds it at anything. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns: the query buffers at their blocks; each buffer whose block may overhang its array stated on
    the part its transfers move only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t)))))

/-- The body at any point. The entity buffers arrive holding their tiles filled out with anything; the body leaves
    them so, which on the moved rows is the zero-filled tile's; and what it stores in the score buffer is, by the
    guard, the payload of the zero-filled tiles: the point's score block exactly. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  have c2 : win0_2.cut (grid0.coords t) (tileRe m c t) = iblk m c 2 t := win0_2.cut_fill _ _ _
  have c3 : win0_3.cut (grid0.coords t) (tileIm m c t) = iblk m c 3 t := win0_3.cut_fill _ _ _
  have hs : scoreOf (grid0.coords t) (iblk m c 0 t) (iblk m c 1 t) (win0_2.fill (grid0.coords t) d2 (iblk m c 2 t)) (win0_3.fill (grid0.coords t) d3 (iblk m c 3 t))
      = scoreBlk m c t := by
    rw [scoreOf_eq]
    unfold scoreBlk tileRe tileIm
    refine pay_guard t _ _ _ _ _ _ (fun j hj => ?_) (fun j hj => ?_)
    · unfold Window.fill; rw [dif_pos (moved_re t j hj), dif_pos (moved_re t j hj)]
    · unfold Window.fill; rw [dif_pos (moved_im t j hj), dif_pos (moved_im t j hj)]
  isplitl [H2]
  · iexists d2
    change _ ⊢ owns (c : Thread nD τ) (st0_2 t) fullShare (win0_2.fill (grid0.coords t) d2 (win0_2.cut (grid0.coords t) (tileRe m c t)))
    rw [c2]; try iexact H2
  isplitl [H3]
  · iexists d3
    change _ ⊢ owns (c : Thread nD τ) (st0_3 t) fullShare (win0_3.fill (grid0.coords t) d3 (win0_3.cut (grid0.coords t) (tileIm m c t)))
    rw [c3]; try iexact H3
  · iexists scoreBlk m c t
    change _ ⊢ owns (c : Thread nD τ) (st0_4 t) fullShare (win0_4.fill (grid0.coords t) (scoreBlk m c t) (win0_4.cut (grid0.coords t) (scoreBlk m c t)))
    rw [win0_4.fill_cut, ← hs]; try iexact H4

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every array of the pipeline at what the library computes from the proof
    data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME: the program runs to the end, faults nowhere, and leaves its five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Tile

end
-- ==== Proof.ScoreSpec.lean ====
/-
  The score, as one function of four arrays over the extended reals.

  `score q_re q_im t_re t_im (b, n) = ∑_d q_re[b, d]·t_re[n, d] + ∑_d q_im[b, d]·t_im[n, d]`: the real part of the
  Hermitian product of query row `b` (1024 complex coordinates) with entity row `n` of the 100000, for each of the
  1024 queries. Both programs compute it: the kernel 2048 entities at a time, the reference as two whole products.
-/
import Idealize.ShloMosaic.PureOps.Ideal.Laws
import Idealize.ShloMosaic.Lib.ValueIdx

noncomputable section

open scoped BigOperators

namespace Cert.ScoreSpec

open Idealize.ShloMosaic Idealize.ShloMosaic.ValueIdx

abbrev Query : Shape := ⟨2, ![1024, 1024]⟩
abbrev Table : Shape := ⟨2, ![100000, 1024]⟩
abbrev Scores : Shape := ⟨2, ![1024, 100000]⟩

def score (qre qim : Query.Idx → EReal) (tre tim : Table.Idx → EReal) : Scores.Idx → EReal := fun i =>
  (∑ d : Fin 1024, qre (ix2 (n0 := 1024) (i 0) d) * tre (ix2 (n0 := 100000) (i 1) d))
    + ∑ d : Fin 1024, qim (ix2 (n0 := 1024) (i 0) d) * tim (ix2 (n0 := 100000) (i 1) d)

theorem score_apply (qre qim : Query.Idx → EReal) (tre tim : Table.Idx → EReal) (b : Fin 1024) (n : Fin 100000) :
    score qre qim tre tim (ix2 b n)
      = (∑ d : Fin 1024, qre (ix2 b d) * tre (ix2 n d)) + ∑ d : Fin 1024, qim (ix2 b d) * tim (ix2 n d) := rfl

end Cert.ScoreSpec

end
-- ==== Proof.LibDotNT.lean ====
/-
  A·Bᵀ read at an index, at the ideal values.

  For the dimension numbers "contract the LAST axis of both rank-2 operands" — an M×K left operand against an N×K right
  operand, `DotDims.transposedRhs M K N`, the form a kernel writes when it multiplies by a weight matrix stored
  [out, in] without transposing it — the (a, b) entry of the product is the sum over the contracted coordinate c of
  A[a, c] · B[b, c]. Stated for the kernel's `tpu.matmul` into the zero accumulator (`matmul_abT_zero_apply`) and for
  the host's `dot_general` (`dotGeneral_abT_apply`), each for ANY record equal to `DotDims.transposedRhs M K N` (a printed
  program's own record is one by `rfl`), and once more with the operand entries named by the caller
  (`matmul_abT_zero_apply_of_eq`), for operands that are themselves format changes or re-layings of loaded blocks.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat}

/-- The left operand's index at output (a, b) and contraction position c is (a, c): the free axis follows the output's
    row, the contracted axis the position. -/
theorem lhsIdx_transposedRhs (a : Fin M) (b : Fin N) (c : Fin K) :
    (DotDims.transposedRhs M K N).lhsIdx (ix2 a b) ((contrEquiv1 (DotDims.transposedRhs M K N) K rfl rfl).symm c) = ix2 a c := by
  have hc := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact hc

/-- The right operand's index there is (b, c): its free axis follows the output's COLUMN, and it too is contracted on its
    last axis. -/
theorem rhsIdx_transposedRhs (a : Fin M) (b : Fin N) (c : Fin K) :
    (DotDims.transposedRhs M K N).rhsIdx (ix2 a b) ((contrEquiv1 (DotDims.transposedRhs M K N) K rfl rfl).symm c) = ix2 b c := by
  have hc := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact hc

/-- A `tpu.matmul` with these dimension numbers into the zero accumulator, read at (a, b): ∑ c, A[a, c] · B[b, c]. -/
theorem matmul_abT_zero_apply {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N) :
    matmul d prec A B (constant ⟨2, ![M, N]⟩ .f32 0x00000000#32) (ix2 a b) = ∑ c : Fin K, A (ix2 a c) * B (ix2 b c) := by
  subst hd
  show FloatOps.matmul _ prec A B _ (ix2 a b) = _
  rw [Ideal.matmul_constant_zero_apply, ← Equiv.sum_comp (contrEquiv1 (DotDims.transposedRhs M K N) K rfl rfl).symm]
  refine Finset.sum_congr rfl fun c _ => ?_
  rw [lhsIdx_transposedRhs, rhsIdx_transposedRhs]

/-- The same with the operands' entries named: whatever A and B are known to be at (a, c) and (b, c). -/
theorem matmul_abT_zero_apply_of_eq {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N)
    (L R : Fin K → EReal) (hl : ∀ c, A (ix2 a c) = L c) (hr : ∀ c, B (ix2 b c) = R c) :
    matmul d prec A B (constant ⟨2, ![M, N]⟩ .f32 0x00000000#32) (ix2 a b) = ∑ c : Fin K, L c * R c :=
  (matmul_abT_zero_apply d hd prec A B a b).trans (Finset.sum_congr rfl fun c _ => by rw [hl c, hr c])

/-- The host's `dot_general` with these dimension numbers, read at (a, b): the same sum. -/
theorem dotGeneral_abT_apply {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N) :
    Host.dotGeneral d prec A B (ix2 a b) = ∑ c : Fin K, A (ix2 a c) * B (ix2 b c) := by
  subst hd
  show FloatOps.dotGeneral _ prec _ A B (ix2 a b) = _
  rw [Ideal.dotGeneral_apply, ← Equiv.sum_comp (contrEquiv1 (DotDims.transposedRhs M K N) K rfl rfl).symm]
  refine Finset.sum_congr rfl fun c _ => ?_
  rw [lhsIdx_transposedRhs, rhsIdx_transposedRhs]

end Idealize.ShloMosaic.DotNT

end
-- ==== Proof.ScoreValue.lean ====
/-
  What the score array holds after the kernel's run, at the ideal values.

  Point `t` of the grid writes back the first `min 2048 (100000 - 2048·t)` columns of its score block onto columns
  `2048·t …` of the score array. Entry (b, j) of that block is, by the two products into zero accumulators,
  `∑_d q_re[b, d]·tile_re[j, d] + ∑_d q_im[b, d]·tile_im[j, d]`; for a column the write-back keeps, row `j` of each
  tile is inside the table — it passes the guard and is the table's row `2048·t + j`. So every block written back is
  the block of ONE function of the four arrays (Proof/ScoreSpec.lean), and the 49 blocks cover the score array.
-/
import proofs.«401201_j20873541059112_3_alg».proof.Proof.ScoreTileIdeal
import proofs.«401201_j20873541059112_3_alg».proof.Proof.ScoreSpec
import proofs.«401201_j20873541059112_3_alg».proof.Proof.LibDotNT
import Idealize.ShloMosaic.Lib.ValueIdx
import Idealize.ShloMosaic.Lib.Pipeline.Value
import Idealize.ShloMosaic.PureOps.Ideal

set_option maxRecDepth 16384

noncomputable section

open scoped BigOperators

namespace Cert.KernelIdeal.ScoreValue

open Cert.KernelIdeal Cert.KernelIdeal.Gen Cert.KernelIdeal.Tile
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The body's payload at an index -/

/-- Entry (b, j) of a point's score block, for a column `j` whose entity row is inside the table: the two sums over
    the 1024 coordinates, the guard passed. -/
theorem pay_apply (t : Fin cfg0.N) (q0 q1 : FVec Ideal S1024x1024 .bf16) (e0 e1 : FVec Ideal S2048x1024 .f32)
    (b : Fin 1024) (col : Fin 2048) (hcol : col.val + 2048 * t.val < 100000) :
    k0_pay1 (F := Ideal) (grid0.coords t) e0 e1 q0 q1 (ix2 b col)
      = (∑ d : Fin 1024, q0 (ix2 b d) * e0 (ix2 col d)) + ∑ d : Fin 1024, q1 (ix2 b d) * e1 (ix2 col d) := by
  have hp : ((grid0.coords t) 0).val < 49 := by rw [coord_val]; exact t.isLt
  have hmask : ∀ d : Fin 1024, Cert.RowGuard.rowMask ((grid0.coords t) 0).val iota_S2048x1024_d0_w32 (ix2 col d) = 1 := fun d =>
    (Cert.RowGuard.rowMask_apply _ hp iota_S2048x1024_d0_w32 (ix2 col d)).mpr (by rw [coord_val]; exact hcol)
  unfold k0_pay1
  dsimp only
  rw [addf_apply]
  congr 1
  · refine DotNT.matmul_abT_zero_apply_of_eq _ rfl none _ _ b col _ _ (fun d => ?_) (fun d => ?_)
    · rw [shapeCast_self]
    · rw [truncf_apply, select_apply]; unfold Scalar.select; exact if_pos (hmask d)
  · refine DotNT.matmul_abT_zero_apply_of_eq _ rfl none _ _ b col _ _ (fun d => ?_) (fun d => ?_)
    · rw [shapeCast_self]
    · rw [truncf_apply, select_apply]; unfold Scalar.select; exact if_pos (hmask d)

/-! ## Where each block sits in its array -/

/-- The block indices, over the grid: the queries' block never moves, an entity tile is block `t` of its table's rows,
    the score block is block `t` of the score array's columns. -/
theorem idx_facts : ∀ t : Fin cfg0.N,
    win0_0.index t 0 = 0 ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = 0 ∧ win0_4.index t 1 = t.val :=
  (by decide +kernel : ∀ t : Fin grid0.N,
    win0_0.index t 0 = 0 ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = 0 ∧ win0_4.index t 1 = t.val)

/-- The write-back of the score block keeps every row and the columns inside the score array. -/
theorem xsize_out : ∀ t : Fin cfg0.N, win0_4.xsize (grid0.coords t) 0 = 1024 ∧ win0_4.xsize (grid0.coords t) 1 = min 2048 (100000 - 2048 * t.val) :=
  (by decide +kernel : ∀ t : Fin grid0.N, win0_4.xsize (grid0.coords t) 0 = 1024 ∧ win0_4.xsize (grid0.coords t) 1 = min 2048 (100000 - 2048 * t.val))

abbrev queryRe (c : Dev nD) : FVec Ideal S1024x1024 .bf16 := V m c main_v11
abbrev queryIm (c : Dev nD) : FVec Ideal S1024x1024 .bf16 := V m c main_v12
abbrev tableRe (c : Dev nD) : FVec Ideal S100000x1024 .f32 := V m c main_arg2
abbrev tableIm (c : Dev nD) : FVec Ideal S100000x1024 .f32 := V m c main_arg3
/-- The blocks a point's body is handed, at their literal types. -/
abbrev qblkRe (c : Dev nD) (t : Fin cfg0.N) : FVec Ideal S1024x1024 .bf16 := iblk m c 0 t
abbrev qblkIm (c : Dev nD) (t : Fin cfg0.N) : FVec Ideal S1024x1024 .bf16 := iblk m c 1 t
abbrev tblkRe (c : Dev nD) (t : Fin cfg0.N) : FVec Ideal S2048x1024 .f32 := tileRe m c t
abbrev tblkIm (c : Dev nD) (t : Fin cfg0.N) : FVec Ideal S2048x1024 .f32 := tileIm m c t

theorem queryRe_blk (c : Dev nD) (t : Fin cfg0.N) (b d : Fin 1024) : qblkRe m c t (ix2 b d) = queryRe m c (ix2 b d) := by
  show iblk m c 0 t (ix2 b d) = _
  unfold iblk
  rw [View.read_apply]
  show V m c main_v11 _ = V m c main_v11 _
  refine congrArg _ (funext fun a => Fin.ext ?_)
  match a with
  | ⟨0, _⟩ => show win0_0.index t 0 * 1024 + 1 * b.val = b.val; rw [(idx_facts t).1]; omega
  | ⟨1, _⟩ => show win0_0.index t 1 * 1024 + 1 * d.val = d.val; rw [(idx_facts t).2.1]; omega

theorem queryIm_blk (c : Dev nD) (t : Fin cfg0.N) (b d : Fin 1024) : qblkIm m c t (ix2 b d) = queryIm m c (ix2 b d) := by
  show iblk m c 1 t (ix2 b d) = _
  unfold iblk
  rw [View.read_apply]
  show V m c main_v12 _ = V m c main_v12 _
  refine congrArg _ (funext fun a => Fin.ext ?_)
  match a with
  | ⟨0, _⟩ => show win0_1.index t 0 * 1024 + 1 * b.val = b.val; rw [(idx_facts t).2.2.1]; omega
  | ⟨1, _⟩ => show win0_1.index t 1 * 1024 + 1 * d.val = d.val; rw [(idx_facts t).2.2.2.1]; omega

/-- Row `j` of point `t`'s real entity tile, inside the table, is the table's row `2048·t + j`. -/
theorem tileRe_apply (c : Dev nD) (t : Fin cfg0.N) (col : Fin 2048) (d : Fin 1024) (h : col.val + 2048 * t.val < 100000) :
    tblkRe m c t (ix2 col d) = tableRe m c (ix2 (⟨2048 * t.val + col.val, by omega⟩ : Fin 100000) d) := by
  show tileRe m c t (ix2 col d) = _
  unfold tileRe Window.fill
  rw [dif_pos (moved_re t (ix2 col d) h)]
  unfold iblk
  rw [View.read_apply]
  show V m c main_arg2 _ = V m c main_arg2 _
  refine congrArg _ (funext fun a => Fin.ext ?_)
  match a with
  | ⟨0, _⟩ => show win0_2.index t 0 * 2048 + 1 * col.val = 2048 * t.val + col.val; rw [(idx_facts t).2.2.2.2.1]; omega
  | ⟨1, _⟩ => show win0_2.index t 1 * 1024 + 1 * d.val = d.val; rw [(idx_facts t).2.2.2.2.2.1]; omega

theorem tileIm_apply (c : Dev nD) (t : Fin cfg0.N) (col : Fin 2048) (d : Fin 1024) (h : col.val + 2048 * t.val < 100000) :
    tblkIm m c t (ix2 col d) = tableIm m c (ix2 (⟨2048 * t.val + col.val, by omega⟩ : Fin 100000) d) := by
  show tileIm m c t (ix2 col d) = _
  unfold tileIm Window.fill
  rw [dif_pos (moved_im t (ix2 col d) h)]
  unfold iblk
  rw [View.read_apply]
  show V m c main_arg3 _ = V m c main_arg3 _
  refine congrArg _ (funext fun a => Fin.ext ?_)
  match a with
  | ⟨0, _⟩ => show win0_3.index t 0 * 2048 + 1 * col.val = 2048 * t.val + col.val; rw [(idx_facts t).2.2.2.2.2.2.1]; omega
  | ⟨1, _⟩ => show win0_3.index t 1 * 1024 + 1 * d.val = d.val; rw [(idx_facts t).2.2.2.2.2.2.2.1]; omega

/-! ## The score array after the run -/

/-- The score of the four arrays as the region finds them. -/
def G (c : Dev nD) : FVec Ideal S1024x100000 .f32 :=
  Cert.ScoreSpec.score (queryRe m c) (queryIm m c) (tableRe m c) (tableIm m c)

/-- Entry (b, j) of point `t`'s score block, for a column the write-back keeps, is `G`'s entry (b, 2048·t + j). -/
theorem scoreBlk_apply (c : Dev nD) (t : Fin cfg0.N) (b : Fin 1024) (col : Fin 2048) (hcol : col.val + 2048 * t.val < 100000) :
    scoreBlk m c t (ix2 b col) = G m c (ix2 b (⟨2048 * t.val + col.val, by omega⟩ : Fin 100000)) := by
  have h1 : (∑ d : Fin 1024, qblkRe m c t (ix2 b d) * tblkRe m c t (ix2 col d))
      = ∑ d : Fin 1024, queryRe m c (ix2 b d) * tableRe m c (ix2 (⟨2048 * t.val + col.val, by omega⟩ : Fin 100000) d) :=
    Finset.sum_congr rfl fun d _ => by rw [queryRe_blk m c t b d, tileRe_apply m c t col d hcol]
  have h2 : (∑ d : Fin 1024, qblkIm m c t (ix2 b d) * tblkIm m c t (ix2 col d))
      = ∑ d : Fin 1024, queryIm m c (ix2 b d) * tableIm m c (ix2 (⟨2048 * t.val + col.val, by omega⟩ : Fin 100000) d) :=
    Finset.sum_congr rfl fun d _ => by rw [queryIm_blk m c t b d, tileIm_apply m c t col d hcol]
  exact (pay_apply t (qblkRe m c t) (qblkIm m c t) (tblkRe m c t) (tblkIm m c t) b col hcol).trans
    ((congrArg₂ (fun u v : EReal => u + v) h1 h2).trans
      (Cert.ScoreSpec.score_apply (queryRe m c) (queryIm m c) (tableRe m c) (tableIm m c) b _).symm)

section Point

variable (c : Dev nD) (t : Fin cfg0.N) (y : ((cfg0.win 4).xblock (cfg0.grid.coords t)).Idx)

/-- An index of the part of the score block the write-back moves, as its two coordinates; -/
theorem xinj_eq (hy0 : (y 0).val < 1024) (hc2 : (y 1).val < 2048) :
    win0_4.xinj (grid0.coords t) y = ix2 (⟨(y 0).val, hy0⟩ : Fin 1024) (⟨(y 1).val, hc2⟩ : Fin 2048) :=
  funext fun a => by match a with | ⟨0, _⟩ => rfl | ⟨1, _⟩ => rfl

/-- and where the write-back puts it in the score array: same row, column `2048·t` further. -/
theorem emb_eq (hy0 : (y 0).val < 1024) (hn : 2048 * t.val + (y 1).val < 100000) :
    ((cfg0.win 4).blk t).view.emb y = ix2 (⟨(y 0).val, hy0⟩ : Fin 1024) (⟨2048 * t.val + (y 1).val, hn⟩ : Fin 100000) :=
  funext fun a => Fin.ext (by
    match a with
    | ⟨0, _⟩ => show win0_4.index t 0 * 1024 + 1 * (y 0).val = (y 0).val; rw [(idx_facts t).2.2.2.2.2.2.2.2.1]; omega
    | ⟨1, _⟩ => show win0_4.index t 1 * 2048 + 1 * (y 1).val = 2048 * t.val + (y 1).val; rw [(idx_facts t).2.2.2.2.2.2.2.2.2]; omega)

theorem flushed_unfold : (dats m 0 c).flushed 4 t y = (dats m 0 c).after 4 t (win0_4.xinj (grid0.coords t) y) := rfl

theorem flushed_at (hy0 : (y 0).val < 1024) (hc2 : (y 1).val < 2048) :
    (dats m 0 c).flushed 4 t y = scoreBlk m c t (ix2 (⟨(y 0).val, hy0⟩ : Fin 1024) (⟨(y 1).val, hc2⟩ : Fin 2048)) := by
  rw [flushed_unfold m c t y, after0_4, xinj_eq t y hy0 hc2]

theorem read_G_at (hy0 : (y 0).val < 1024) (hn : 2048 * t.val + (y 1).val < 100000) :
    ((cfg0.win 4).blk t).view.read (Elt Ideal) (G m c) y
      = G m c (ix2 (⟨(y 0).val, hy0⟩ : Fin 1024) (⟨2048 * t.val + (y 1).val, hn⟩ : Fin 100000)) := by
  rw [View.read_apply, emb_eq t y hy0 hn]
  rfl

end Point

/-- What point `t` writes back is its block of `G`. -/
theorem flushed_eq (c : Dev nD) (t : Fin cfg0.N) :
    (dats m 0 c).flushed 4 t = ((cfg0.win 4).blk t).view.read (Elt Ideal) (G m c) := by
  funext y
  have hy0 : (y 0).val < 1024 := lt_of_lt_of_eq (y 0).isLt (xsize_out t).1
  have hy1 : (y 1).val < min 2048 (100000 - 2048 * t.val) := lt_of_lt_of_eq (y 1).isLt (xsize_out t).2
  have ht : t.val < 49 := t.isLt
  have hcol : (y 1).val + 2048 * t.val < 100000 := by omega
  have hc2 : (y 1).val < 2048 := by omega
  have hn : 2048 * t.val + (y 1).val < 100000 := by omega
  rw [flushed_at m c t y hy0 hc2, read_G_at m c t y hy0 hn]
  exact scoreBlk_apply m c t ⟨(y 0).val, hy0⟩ ⟨(y 1).val, hc2⟩ hcol

/-- Every entry of the score array is in the block some point writes back: column `n` in point `n / 2048`'s. -/
theorem cover (i : S1024x100000.Idx) :
    ∃ t : Fin cfg0.N, (cfg0.win 4).flush t = true ∧ i ∈ ((cfg0.win 4).blk t).view.set := by
  have h0 : (i 0).val < 1024 := (i 0).isLt
  have h1 : (i 1).val < 100000 := (i 1).isLt
  let t : Fin cfg0.N := ⟨(i 1).val / 2048, by show (i 1).val / 2048 < 49; omega⟩
  refine ⟨t, flush0_4 t, ?_⟩
  show i ∈ ((View.whole main_v13).slice (win0_4.rect t)).set
  rw [View.set_slice_whole, Rect.mem_set_unit]
  have htv : t.val = (i 1).val / 2048 := rfl
  intro a
  match a with
  | ⟨0, _⟩ =>
    show win0_4.index t 0 * 1024 ≤ (i 0).val ∧ (i 0).val < win0_4.index t 0 * 1024 + win0_4.xsize (grid0.coords t) 0
    rw [(idx_facts t).2.2.2.2.2.2.2.2.1, (xsize_out t).1]; omega
  | ⟨1, _⟩ =>
    show win0_4.index t 1 * 2048 ≤ (i 1).val ∧ (i 1).val < win0_4.index t 1 * 2048 + win0_4.xsize (grid0.coords t) 1
    rw [(idx_facts t).2.2.2.2.2.2.2.2.2, (xsize_out t).2]; omega

/-- The score array after every write-back is `G`. -/
theorem final (c : Dev nD) : (dats m 0 c).arrAt 4 cfg0.N = G m c :=
  (dats m 0 c).arrAt_eq_of_cover 4 (G m c) (fun t _ => flushed_eq m c t) cover

/-- THE KERNEL'S RUN, the result named: every weakly fair execution ends with the score array at `G` and the five
    argument arrays as they were. -/
theorem run : θ_run defs (onTc (τ := τ) (main (F := Ideal))) ⟨m, fun _ => 0, ρ⟩ (fun r => ∀ c : Dev nD,
      r.2.mem ((c.tc : Thread nD τ).loc main_v13) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.KernelIdeal.ScoreValue

end
-- ==== Proof.IndexRange.lean ====
/-
  Row indices, as 32-bit signed words. An index `e` into an axis of extent `N` with `-N ≤ e < N` is first wrapped
  (`e + N` when `e < 0`, else `e`), as NumPy reads a negative index from the end; the wrapped index then lies in
  `0 … N - 1`. That is what the out-of-range test of a filling gather asks of it, so for such an index the test
  passes and the gather's own row is kept. Also: an `and`-reduction from 1 over words that are all 1 is 1.
-/
import Idealize.ShloMosaic.PureOps
import Idealize.ShloMosaic.PureOps.Reduce

namespace Cert.IndexRange

open Idealize.ShloMosaic

theorem ofBool_one (b : Bool) : BitVec.ofBool b = 1#1 ↔ b = true := by cases b <;> decide

theorem ofBool_one' (b : Bool) : BitVec.ofBool b = 1 ↔ b = true := by cases b <;> decide

/-- The wrapped index of a word in `[-N, N)` lies in `[0, N - 1]`; `lo`, `n`, `hi` are the words of `-N`, `N`, `N - 1`. -/
theorem wrap_in_range (lo n hi e : BitVec 32) (N : Int) (hN0 : 0 < N) (hN1 : N < 2 ^ 30)
    (hlo : lo.toInt = -N) (hn : n.toInt = N) (hhi : hi.toInt = N - 1)
    (h1 : IntOp.cmpi .sge e lo = 1#1) (h2 : IntOp.cmpi .slt e n = 1#1) :
    IntOp.cmpi .sge (Scalar.select (IntOp.cmpi .slt e 0#32) (IntOp.addi e n) e) 0#32 = 1#1 ∧
    IntOp.cmpi .sle (Scalar.select (IntOp.cmpi .slt e 0#32) (IntOp.addi e n) e) hi = 1#1 := by
  have z : (0#32 : BitVec 32).toInt = 0 := by decide
  simp only [IntOp.cmpi, ofBool_one, BitVec.sle, BitVec.slt, decide_eq_true_eq] at h1 h2
  rw [hlo] at h1; rw [hn] at h2
  unfold Scalar.select
  by_cases hneg : e.toInt < 0
  · have hc : IntOp.cmpi .slt e 0#32 = 1 := by
      simp only [IntOp.cmpi, ofBool_one', BitVec.slt, decide_eq_true_eq, z]; exact hneg
    rw [if_pos hc]
    have hs : (IntOp.addi e n).toInt = e.toInt + N := by
      unfold IntOp.addi
      rw [BitVec.toInt_add, hn]
      apply Int.bmod_eq_of_le <;> omega
    simp only [IntOp.cmpi, ofBool_one, BitVec.sle, decide_eq_true_eq, hs, z, hhi]
    omega
  · have hc : ¬ IntOp.cmpi .slt e 0#32 = 1 := by
      simp only [IntOp.cmpi, ofBool_one', BitVec.slt, decide_eq_true_eq, z]; exact hneg
    rw [if_neg hc]
    simp only [IntOp.cmpi, ofBool_one, BitVec.sle, decide_eq_true_eq, z, hhi]
    omega

/-- A left fold by `and` from 1 over words that are all 1 is 1. -/
theorem foldl_andi_ones {ι : Type} (f : ι → BitVec 1) : ∀ (l : List ι), (∀ n ∈ l, f n = 1#1) →
    l.foldl (fun r n => IntOp.andi r (f n)) 1#1 = 1#1
  | [], _ => rfl
  | a :: l, h => by
    rw [List.foldl_cons, h a List.mem_cons_self, show IntOp.andi (1#1) (1#1) = 1#1 from by decide]
    exact foldl_andi_ones f l fun n hn => h n (List.mem_cons_of_mem _ hn)

/-- A `stablehlo.reduce` by `and` from an initial 1 over an operand of all 1s is 1 at every index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun n _ => hx n

end Cert.IndexRange
-- ==== Proof.HostRows.lean ====
/-
  The host lines before the launch, read back.

  Before the kernel is launched the program gathers the head rows `ent_re[e1]`, `ent_im[e1]` and the phase rows
  `rel_phase[r]`, rotates the heads by the phases, `(h_re + i·h_im)·(cos φ + i·sin φ)`, and narrows the two parts of
  the product to bf16: the two query matrices the kernel multiplies the entity tables by. Each gather is a FILLING
  one: the index is wrapped (`e + N` when negative), tested against `0 … N - 1`, and a row whose wrapped index
  fails the test is replaced by the NaN word. For an index `-N ≤ e < N` the test passes (Proof/IndexRange.lean), so
  the row is the gather's own.
-/
import proofs.«401201_j20873541059112_3_alg».proof.Proof.Gen.KernelIdeal.Frame
import proofs.«401201_j20873541059112_3_alg».proof.Proof.IndexRange
import Idealize.ShloMosaic.Lib.StableHlo.Run
import Idealize.ShloMosaic.Lib.Affine

noncomputable section

namespace Cert.KernelIdeal.HostRows

open Cert.KernelIdeal Cert.KernelIdeal.Gen
open Idealize.ShloMosaic Idealize.ShloMosaic.TcCoe Idealize.SL.Sem Idealize.ShloMosaic.StableHlo

variable {F : FTy → Type} [FloatOps F]

/-! ## The terms -/

/-- An index vector wrapped into the axis: `e + n` where `e < 0`, else `e`. -/
def wrapped (n : BitVec 32) (e : IVec S1024 32) : IVec S1024 32 :=
  select (cmpi .slt e (broadcastInDim S1024 ![] bcast_S_S1024 (constantI S_ 32 0#32)))
    (addi e (broadcastInDim S1024 ![] bcast_S_S1024 (constantI S_ 32 n))) e

/-- The same as the gather's index column. -/
def wrapCol (n : BitVec 32) (e : IVec S1024 32) : IVec S1024x1 32 :=
  broadcastInDim S1024x1 ![0] bcast_S1024_S1024x1_0 (wrapped n e)

/-- The test `0 ≤ col ≤ hi` of an index column, spread over the 1024 entries of each row. -/
def inRange (hi : BitVec 32) (col : IVec S1024x1 32) : IVec S1024x1024 1 :=
  broadcastInDim S1024x1024 ![0] bcast_S1024_S1024x1024_0
    (Host.reduce IntOp.andi
      (andi (cmpi .sge col (broadcastInDim S1024x1 ![] bcast_S_S1024x1 (constantI S_ 32 0#32)))
        (cmpi .sle col (broadcastInDim S1024x1 ![0, 1] bcast_S1x1_S1024x1_0_1
          (broadcastInDim S1x1 ![1] bcast_S1_S1x1_1 (constantI S1 32 hi)))))
      (constantI S_ 1 1#1) reducesTo_S1024x1_S1024_d1 h_S_)

/-- The fill: the NaN word everywhere. -/
def fillRows : FVec F S1024x1024 .f32 :=
  broadcastInDim S1024x1024 ![] bcast_S_S1024x1024 (constant S_ .f32 0x7FC00000#32)

/-- The filling gather of 1024 rows of an entity table, -/
def takeEnt (x : FVec F S100000x1024 .f32) (e : IVec S1024 32) : FVec F S1024x1024 .f32 :=
  select (inRange 99999#32 (wrapCol 100000#32 e))
    (Host.gather gather_S100000x1024_S1024x1_S1024x1024_1_0_n_n_0_1_11024 x (wrapCol 100000#32 e)) fillRows

/-- and of the phase table. -/
def takeRel (x : FVec F S500x1024 .f32) (r : IVec S1024 32) : FVec F S1024x1024 .f32 :=
  select (inRange 499#32 (wrapCol 500#32 r))
    (Host.gather gather_S500x1024_S1024x1_S1024x1024_1_0_n_n_0_1_11024 x (wrapCol 500#32 r)) fillRows

/-- The real part of the rotated heads, narrowed: `h_re·cos φ - h_im·sin φ`. -/
def rotRe (e r : IVec S1024 32) (xre xim : FVec F S100000x1024 .f32) (ph : FVec F S500x1024 .f32) : FVec F S1024x1024 .bf16 :=
  truncf .bf16 (subf (mulf (takeEnt xre e) (Host.cos (takeRel ph r))) (mulf (takeEnt xim e) (Host.sin (takeRel ph r)))) bitsLt_bf16_f32

/-- The imaginary part: `h_re·sin φ + h_im·cos φ`. -/
def rotIm (e r : IVec S1024 32) (xre xim : FVec F S100000x1024 .f32) (ph : FVec F S500x1024 .f32) : FVec F S1024x1024 .bf16 :=
  truncf .bf16 (addf (mulf (takeEnt xre e) (Host.sin (takeRel ph r))) (mulf (takeEnt xim e) (Host.cos (takeRel ph r)))) bitsLt_bf16_f32

/-! ## What the region finds in the two query arrays -/

variable (m : (ℓ : Loc nD τ sig) → Buf (Elt F) ℓ)

set_option maxHeartbeats 8000000 in
theorem V_query_re (c : Dev nD) :
    (V m c main_v11 : FVec F S1024x1024 .bf16)
      = rotRe (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  dsimp only [V]
  simp only [hostOps0, hostOps0_1, hostOps0_2, hostOps0_3, List.flatten_cons, List.flatten_nil, List.append_nil, List.cons_append, List.nil_append]
  after_results_simp
  rfl

set_option maxHeartbeats 8000000 in
theorem V_query_im (c : Dev nD) :
    (V m c main_v12 : FVec F S1024x1024 .bf16)
      = rotIm (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  dsimp only [V]
  simp only [hostOps0, hostOps0_1, hostOps0_2, hostOps0_3, List.flatten_cons, List.flatten_nil, List.append_nil, List.cons_append, List.nil_append]
  after_results_simp
  rfl

/-! ## In-range indices pass the test -/

/-- For an index vector all of whose words lie in `[-N, N)` the test of the wrapped column is 1 everywhere. -/
theorem inRange_one (lo n hi : BitVec 32) (N : Int) (hN0 : 0 < N) (hN1 : N < 2 ^ 30)
    (hlo : lo.toInt = -N) (hn : n.toInt = N) (hhi : hi.toInt = N - 1) (e : IVec S1024 32)
    (he : ∀ k, IntOp.cmpi .sge (e k) lo = 1#1 ∧ IntOp.cmpi .slt (e k) n = 1#1) (i : S1024x1024.Idx) :
    inRange hi (wrapCol n e) i = 1#1 := by
  unfold inRange
  show Host.reduce IntOp.andi _ _ reducesTo_S1024x1_S1024_d1 h_S_ _ = 1#1
  refine Cert.IndexRange.reduce_andi_ones _ _ _ _ (fun _ => rfl) (fun i' => ?_) _
  exact IntOp.andi_eq_one.2 (Cert.IndexRange.wrap_in_range lo n hi (e _) N hN0 hN1 hlo hn hhi (he _).1 (he _).2)

theorem takeEnt_eq (x : FVec F S100000x1024 .f32) (e : IVec S1024 32)
    (he : ∀ k, IntOp.cmpi .sge (e k) 4294867296#32 = 1#1 ∧ IntOp.cmpi .slt (e k) 100000#32 = 1#1) :
    takeEnt x e = Host.gather gather_S100000x1024_S1024x1_S1024x1024_1_0_n_n_0_1_11024 x (wrapCol 100000#32 e) := by
  funext i
  unfold takeEnt select Scalar.select
  exact if_pos (inRange_one 4294867296#32 100000#32 99999#32 100000 (by decide) (by decide) (by decide) (by decide) (by decide) e he i)

theorem takeRel_eq (x : FVec F S500x1024 .f32) (r : IVec S1024 32)
    (hr : ∀ k, IntOp.cmpi .sge (r k) 4294966796#32 = 1#1 ∧ IntOp.cmpi .slt (r k) 500#32 = 1#1) :
    takeRel x r = Host.gather gather_S500x1024_S1024x1_S1024x1024_1_0_n_n_0_1_11024 x (wrapCol 500#32 r) := by
  funext i
  unfold takeRel select Scalar.select
  exact if_pos (inRange_one 4294966796#32 500#32 499#32 500 (by decide) (by decide) (by decide) (by decide) (by decide) r hr i)

end Cert.KernelIdeal.HostRows

end
-- ==== Proof.RefValue.lean ====
/-
  The reference's result, as the score of ITS rotated heads; and those are the kernel's.

  The reference gathers the head and phase rows by plain lookups, rotates, and multiplies each part of the product by
  the whole entity table, contracting the 1024 coordinates: entry (b, n) of its result is
  `∑_d rot_re[b, d]·ent_re[n, d] + ∑_d rot_im[b, d]·ent_im[n, d]` — the function of Proof/ScoreSpec.lean. Its rotated
  heads are the kernel's host lines' (Proof/HostRows.lean) once every index is in range: the same wrapped index, the same
  lookups, the same products, the kernel's narrowing to bf16 the identity on extended reals.
-/
import proofs.«401201_j20873541059112_3_alg».proof.Proof.Gen.ReferenceIdeal.Run
import proofs.«401201_j20873541059112_3_alg».proof.Proof.Gen.ReferenceIdeal.Read
import proofs.«401201_j20873541059112_3_alg».proof.Proof.HostRows
import proofs.«401201_j20873541059112_3_alg».proof.Proof.ScoreSpec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's result is the score of its two rotated-head stages and the two tables. -/
theorem result_is_score (x0 x1 : IVec S1024 32) (x2 x3 : FVec Ideal S100000x1024 .f32) (x4 : FVec Ideal S500x1024 .f32) :
    (val_main_v31 (F := Ideal) x0 x1 x2 x3 x4 : Cert.ScoreSpec.Scores.Idx → EReal)
      = Cert.ScoreSpec.score (val_main_v25 (F := Ideal) x0 x1 x2 x3 x4) (val_main_v28 (F := Ideal) x0 x1 x2 x3 x4) x2 x3 := by
  funext i
  have l29 : ∀ k : Fin 1024, lidx_main_v29 i k = ix2 (n0 := 1024) (i 0) k :=
    fun k => funext fun a => by match a with | ⟨0, _⟩ => rfl | ⟨1, _⟩ => rfl
  have r29 : ∀ k : Fin 1024, ridx_main_v29 i k = ix2 (n0 := 100000) (i 1) k :=
    fun k => funext fun a => by match a with | ⟨0, _⟩ => rfl | ⟨1, _⟩ => rfl
  have l30 : ∀ k : Fin 1024, lidx_main_v30 i k = ix2 (n0 := 1024) (i 0) k :=
    fun k => funext fun a => by match a with | ⟨0, _⟩ => rfl | ⟨1, _⟩ => rfl
  have r30 : ∀ k : Fin 1024, ridx_main_v30 i k = ix2 (n0 := 100000) (i 1) k :=
    fun k => funext fun a => by match a with | ⟨0, _⟩ => rfl | ⟨1, _⟩ => rfl
  rw [val_main_v31_apply, val_main_v29_apply, val_main_v30_apply]
  simp only [l29, r29, l30, r30]
  rfl

open Cert.KernelIdeal.HostRows in
/-- The kernel's real query matrix is the reference's real rotated heads, for indices in range. -/
theorem rotRe_eq (x0 x1 : IVec S1024 32) (x2 x3 : FVec Ideal S100000x1024 .f32) (x4 : FVec Ideal S500x1024 .f32)
    (he : ∀ k, IntOp.cmpi .sge (x0 k) 4294867296#32 = 1#1 ∧ IntOp.cmpi .slt (x0 k) 100000#32 = 1#1)
    (hr : ∀ k, IntOp.cmpi .sge (x1 k) 4294966796#32 = 1#1 ∧ IntOp.cmpi .slt (x1 k) 500#32 = 1#1) :
    (rotRe (F := Ideal) x0 x1 x2 x3 x4 : Cert.ScoreSpec.Query.Idx → EReal) = val_main_v25 (F := Ideal) x0 x1 x2 x3 x4 := by
  unfold rotRe
  rw [takeEnt_eq x2 x0 he, takeEnt_eq x3 x0 he, takeRel_eq x4 x1 hr]
  rfl

open Cert.KernelIdeal.HostRows in
/-- The imaginary one likewise. -/
theorem rotIm_eq (x0 x1 : IVec S1024 32) (x2 x3 : FVec Ideal S100000x1024 .f32) (x4 : FVec Ideal S500x1024 .f32)
    (he : ∀ k, IntOp.cmpi .sge (x0 k) 4294867296#32 = 1#1 ∧ IntOp.cmpi .slt (x0 k) 100000#32 = 1#1)
    (hr : ∀ k, IntOp.cmpi .sge (x1 k) 4294966796#32 = 1#1 ∧ IntOp.cmpi .slt (x1 k) 500#32 = 1#1) :
    (rotIm (F := Ideal) x0 x1 x2 x3 x4 : Cert.ScoreSpec.Query.Idx → EReal) = val_main_v28 (F := Ideal) x0 x1 x2 x3 x4 := by
  unfold rotIm
  rw [takeEnt_eq x2 x0 he, takeEnt_eq x3 x0 he, takeRel_eq x4 x1 hr]
  rfl

end Cert.ReferenceIdeal.RefValue

end
-- ==== Proof.PreIndex.lean ====
/-
  The precondition, read back at the two index vectors: every head index lies in `[-100000, 100000)` and every
  relation index in `[-500, 500)` — the ranges in which the reference's own row lookup `table[index]` stays inside
  the table (a negative index counting from the end).
-/
import proofs.«401201_j20873541059112_3_alg».proof.Pre_finite_inputs
import Idealize.ShloMosaic.Lib.ReduceAll
import Idealize.ShloMosaic.Lib.ValueIdx

namespace Cert.PreIndex

open Idealize.ShloMosaic Cert.Pre_finite_inputs

variable {F : FTy → Type} [FloatOps F] [Cert.Pre_finite_inputs.Facts]

instance : Subsingleton S_.Idx := ⟨fun a b => funext fun d => d.elim0⟩

/-- The last two conjuncts of the printed predicate are two `all`s of a pair of word comparisons: where the predicate
    is 1, both comparisons are 1 at every position of each index vector. -/
theorem idx_of_pre (a0 a1 : IVec S1024 32) (a2 a3 : FVec F S100000x1024 .f32) (a4 : FVec F S500x1024 .f32)
    (h : fn (F := F) a0 a1 a2 a3 a4 = fun _ => 1#1) :
    (∀ k, IntOp.cmpi .sge (a0 k) 4294867296#32 = 1#1 ∧ IntOp.cmpi .slt (a0 k) 100000#32 = 1#1)
      ∧ (∀ k, IntOp.cmpi .sge (a1 k) 4294966796#32 = 1#1 ∧ IntOp.cmpi .slt (a1 k) 500#32 = 1#1) := by
  have h0 := congrFun h ValueIdx.ix0
  unfold fn at h0
  dsimp only at h0
  unfold fn_part1 at h0
  dsimp only at h0
  obtain ⟨h20, h26⟩ := IntOp.andi_eq_one.1 h0
  obtain ⟨-, h19⟩ := IntOp.andi_eq_one.1 h20
  exact ⟨fun k => IntOp.andi_eq_one.1 (Host.reduce_andi_all _ _ _ _ _ h19 k),
    fun k => IntOp.andi_eq_one.1 (Host.reduce_andi_all _ _ _ _ _ h26 k)⟩

end Cert.PreIndex
-- ==== Proof.lean ====
/-
  RotatE retrieval scores: the kernel against its jnp reference, over the extended reals.

  Both programs take 1024 (head, relation) index pairs, rotate each head embedding (1024 complex coordinates) by its
  relation's phases, and score the rotated head against every one of the 100000 entity embeddings:
  `score[b, n] = ∑_d rot_re[b, d]·ent_re[n, d] + ∑_d rot_im[b, d]·ent_im[n, d]` (Proof/ScoreSpec.lean).

  The precondition: the float tables are finite, and every index lies in the range in which the reference's own lookup
  `table[index]` stays inside the table — `-100000 ≤ e1 < 100000`, `-500 ≤ r < 500`, a negative index counting from
  the end. Outside it the two programs part: the reference's lookup clamps, the kernel's fills the row with NaN.

  The kernel's side. The host lines before the launch leave the two rotated-head matrices, narrowed to bf16
  (Proof/HostRows.lean: in range, the filling gathers are the plain ones). The launch runs 49 points, each over 2048
  entity rows; the last point's tiles overhang the tables, and the body's own row guard makes its result independent of
  the rows past the tables' end, so every buffer is named exactly (Proof/ScoreTileIdeal.lean, and its word-level twin
  Proof/ScoreTileBits.lean for the printed kernel's frame). What each point writes back is its block of the score
  function, and the blocks cover the score array (Proof/ScoreValue.lean).

  The reference's side is its generated run, read as the same score function of its own rotated heads
  (Proof/RefValue.lean), which are the kernel's: the narrowing to bf16 is the identity on extended reals, and the kernel's
  two K = 1024 products into zero accumulators are the reference's two whole contractions, term by term. No law of the
  extended reals beyond that is used, so finiteness of the tables is never opened.
-/
import proofs.«401201_j20873541059112_3_alg».proof.Defs
import proofs.«401201_j20873541059112_3_alg».proof.Proof.Gen.Kernel
import proofs.«401201_j20873541059112_3_alg».proof.Proof.Gen.KernelIdeal
import proofs.«401201_j20873541059112_3_alg».proof.Proof.Gen.ReferenceIdeal
import proofs.«401201_j20873541059112_3_alg».proof.Proof.Gen.Pre_finite_inputs
import proofs.«401201_j20873541059112_3_alg».proof.Proof.ScoreTileBits
import proofs.«401201_j20873541059112_3_alg».proof.Proof.ScoreTileIdeal
import proofs.«401201_j20873541059112_3_alg».proof.Proof.ScoreValue
import proofs.«401201_j20873541059112_3_alg».proof.Proof.HostRows
import proofs.«401201_j20873541059112_3_alg».proof.Proof.RefValue
import proofs.«401201_j20873541059112_3_alg».proof.Proof.PreIndex
import Idealize.ShloMosaic.Adequacy
import Idealize.ShloMosaic.Init

noncomputable section

namespace Cert.Proof

open Idealize.ShloMosaic Idealize.SL.Sem

/-- The printed kernel runs to the end, faults nowhere and leaves its arguments as they were. -/
theorem frame_k : Cert.frame_Kernel := fun m ρ _ => Cert.Kernel.Tile.frame m ρ

/-- So does its idealization. -/
theorem frame_ki : Cert.frame_KernelIdeal := fun m ρ _ => Cert.KernelIdeal.Tile.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the score array at the score function of
    the arguments: the kernel's run names it of the arrays the region finds, the reference's of its own stages, and in
    range the two pairs of rotated heads are one. -/
theorem algebraic : Cert.algebraic_KernelIdeal_ReferenceIdeal := by
  intro m ρ m' ρ' hpre hagree
  refine ⟨fun c => Cert.KernelIdeal.ScoreValue.G m c, Cert.KernelIdeal.ScoreValue.run m ρ, ?_⟩
  refine (θ_run Cert.ReferenceIdeal.defs _ _).mono (fun _ h c => ⟨(h c).1.trans ?_, (h c).2⟩)
    (Cert.ReferenceIdeal.Value.run (F := Ideal) m' ρ')
  obtain ⟨he, hr⟩ := Cert.PreIndex.idx_of_pre _ _ _ _ _ (hpre c)
  rw [Cert.ReferenceIdeal.Read.val_main_v31_eq, Cert.ReferenceIdeal.RefValue.result_is_score,
    (hagree c).1, (hagree c).2.1, (hagree c).2.2.1, (hagree c).2.2.2.1, (hagree c).2.2.2.2,
    ← Cert.ReferenceIdeal.RefValue.rotRe_eq _ _ _ _ _ he hr, ← Cert.ReferenceIdeal.RefValue.rotIm_eq _ _ _ _ _ he hr,
    ← Cert.KernelIdeal.HostRows.V_query_re m c, ← Cert.KernelIdeal.HostRows.V_query_im m c,
    ← Cert.KernelIdeal.Gen.V_main_arg2 m c, ← Cert.KernelIdeal.Gen.V_main_arg3 m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
